-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x128 : Shape := ⟨3, ![1024, 64, 128]⟩
abbrev S128x128 : Shape := ⟨2, ![128, 128]⟩
abbrev S_ : Shape := ⟨0, ![]⟩

class Facts : Prop where
  bcast_S_S1024x64x128 : S_.BroadcastsInDim S1024x64x128 (![] : Fin 0 → Fin S1024x64x128.rank)
  reducesTo_S1024x64x128_S_d0_1_2 : S1024x64x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S1024x64x128 .f32) (main_arg1 : FVec F S128x128 .f32) : IVec S_ 1 :=
  let main_v0 : FVec F S1024x64x128 .f32 := Host.absf main_arg0
  let main_cst : FVec F S_ .f32 := constant S_ .f32 0x7F800000#32
  let main_v1 : FVec F S1024x64x128 .f32 := broadcastInDim S1024x64x128 ![] bcast_S_S1024x64x128 main_cst
  let main_v2 : IVec S1024x64x128 1 := cmpf .olt main_v0 main_v1
  let main_c : IVec S_ 1 := constantI S_ 1 1#1
  let main_v3 : IVec S_ 1 := (fun x v => Host.reduce IntOp.andi x v reducesTo_S1024x64x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S1024x64x128 : Shape := ⟨3, ![1024, 64, 128]⟩
abbrev S128x128 : Shape := ⟨2, ![128, 128]⟩
abbrev S64x64x1024 : Shape := ⟨3, ![64, 64, 1024]⟩
abbrev S128x64x128 : Shape := ⟨3, ![128, 64, 128]⟩
abbrev S64x64x128 : Shape := ⟨3, ![64, 64, 128]⟩
abbrev S8192x128 : Shape := ⟨2, ![8192, 128]⟩
abbrev S128x64x64 : Shape := ⟨3, ![128, 64, 64]⟩
abbrev S128x64 : Shape := ⟨2, ![128, 64]⟩
abbrev S128x64x1 : Shape := ⟨3, ![128, 64, 1]⟩
abbrev S128x1x64 : Shape := ⟨3, ![128, 1, 64]⟩
abbrev S128x4096 : Shape := ⟨2, ![128, 4096]⟩
abbrev S4096x128 : Shape := ⟨2, ![4096, 128]⟩
abbrev S1024x64x64 : Shape := ⟨3, ![1024, 64, 64]⟩

abbrev nBuf : Space → Nat
  | .hbm => 4
  | .vmem => 5
  | .smem => 0
  | _ => 0

abbrev bufTy : (tb : Table) → Fin (tcTables nBuf tb) → BufTy
  | .hbm, ⟨0, _⟩ => ⟨S1024x64x128, .f32⟩
  | .hbm, ⟨1, _⟩ => ⟨S128x128, .f32⟩
  | .hbm, ⟨2, _⟩ => ⟨S64x64x1024, .f32⟩
  | .hbm, ⟨3, _⟩ => ⟨S1024x64x64, .f32⟩
  | .local _ .vmem, ⟨0, _⟩ => ⟨S128x64x128, .f32⟩
  | .local _ .vmem, ⟨1, _⟩ => ⟨S128x64x128, .f32⟩
  | .local _ .vmem, ⟨2, _⟩ => ⟨S128x128, .f32⟩
  | .local _ .vmem, ⟨3, _⟩ => ⟨S64x64x128, .f32⟩
  | .local _ .vmem, ⟨4, _⟩ => ⟨S64x64x128, .f32⟩
  | _, _ => ⟨S1024x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x64x128_S128x64x128_0_0_0 : ∀ a, (![0, 0, 0] : Fin 3 → Nat) a + S128x64x128.size a ≤ S128x64x128.size a
  h_S128x64x128 : 0 < S128x64x128.numel
  inb_S128x128_S128x128_0_0 : ∀ a, (![0, 0] : Fin 2 → Nat) a + S128x128.size a ≤ S128x128.size a
  h_S128x128 : 0 < S128x128.numel
  shapeCasts_S128x64x128_S8192x128 : S128x64x128.ShapeCasts S8192x128
  shapeCasts_S8192x128_S128x64x128 : S8192x128.ShapeCasts S128x64x128
  reduces_S128x64x128_S128x64 : S128x64x128.Reduces [2] S128x64
  shapeCasts_S128x64_S128x64x1 : S128x64.ShapeCasts S128x64x1
  shapeCasts_S128x64_S128x1x64 : S128x64.ShapeCasts S128x1x64
  broadcasts_S128x64x1_S128x64x64 : S128x64x1.Broadcasts S128x64x64
  broadcasts_S128x1x64_S128x64x64 : S128x1x64.Broadcasts S128x64x64
  shapeCasts_S128x64x64_S128x4096 : S128x64x64.ShapeCasts S128x4096
  transposes_S128x4096_p1_0_S4096x128 : S128x4096.Transposes [1, 0] S4096x128
  shapeCasts_S4096x128_S64x64x128 : S4096x128.ShapeCasts S64x64x128
  inb_S64x64x128_S64x64x128_0_0_0 : ∀ a, (![0, 0, 0] : Fin 3 → Nat) a + S64x64x128.size a ≤ S64x64x128.size a
  h_S64x64x128 : 0 < S64x64x128.numel
  transposes_S64x64x1024_S1024x64x64_2_0_1 : S64x64x1024.Transposes [2, 0, 1] S1024x64x64
  dot_S8192x128_S128x128_S8192x128_1_0_0_1_n_n_wf : DotDims.WF S8192x128 S128x128 S8192x128 [1] [0] [0] [1] [] []
  dot_S128x64x128_S128x64x128_S128x64x64_2_2_1_1_0_0_wf : DotDims.WF S128x64x128 S128x64x128 S128x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S1024x64x128.size a
  hwx0_0 : ∀ i : grid0.Coords, EltTy.bits .f32 = 32 ∨ (Rect.block (s := S1024x64x128) S128x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x128.size a ≤ S64x64x1024.size a
  hwx0_2 : ∀ i : grid0.Coords, EltTy.bits .f32 = 32 ∨ (Rect.block (s := S64x64x1024) S64x64x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x64x128_S128x64x128_S128x64x64_2_2_1_1_0_0 : DotDims S128x64x128 S128x64x128 S128x64x64 where
  lhsContracting := [2]
  rhsContracting := [2]
  lhsNonContracting := [1]
  rhsNonContracting := [1]
  lhsBatch := [0]
  rhsBatch := [0]
  wf := dot_S128x64x128_S128x64x128_S128x64x64_2_2_1_1_0_0_wf

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64x128 : Shape := ⟨3, ![1024, 64, 128]⟩
abbrev S128x128 : Shape := ⟨2, ![128, 128]⟩
abbrev S_ : Shape := ⟨0, ![]⟩
abbrev S1026x64x128 : Shape := ⟨3, ![1026, 64, 128]⟩
abbrev S342x1x12288 : Shape := ⟨3, ![342, 1, 12288]⟩
abbrev S3x64x128 : Shape := ⟨3, ![3, 64, 128]⟩
abbrev S1x1x12288 : Shape := ⟨3, ![1, 1, 12288]⟩
abbrev S192x128 : Shape := ⟨2, ![192, 128]⟩
abbrev S3x64x1x128 : Shape := ⟨4, ![3, 64, 1, 128]⟩
abbrev S3x1x64x128 : Shape := ⟨4, ![3, 1, 64, 128]⟩
abbrev S3x64x64x128 : Shape := ⟨4, ![3, 64, 64, 128]⟩
abbrev S3x64x64 : Shape := ⟨3, ![3, 64, 64]⟩
abbrev S1026x64x64 : Shape := ⟨3, ![1026, 64, 64]⟩
abbrev S1024x64x64 : Shape := ⟨3, ![1024, 64, 64]⟩

abbrev nBuf : Space → Nat
  | .hbm => 8
  | .vmem => 5
  | .smem => 0
  | _ => 0

abbrev bufTy : (tb : Table) → Fin (tcTables nBuf tb) → BufTy
  | .hbm, ⟨0, _⟩ => ⟨S1024x64x128, .f32⟩
  | .hbm, ⟨1, _⟩ => ⟨S128x128, .f32⟩
  | .hbm, ⟨2, _⟩ => ⟨S_, .i32⟩
  | .hbm, ⟨3, _⟩ => ⟨S_, .f32⟩
  | .hbm, ⟨4, _⟩ => ⟨S1026x64x128, .f32⟩
  | .hbm, ⟨5, _⟩ => ⟨S342x1x12288, .f32⟩
  | .hbm, ⟨6, _⟩ => ⟨S1026x64x64, .f32⟩
  | .hbm, ⟨7, _⟩ => ⟨S1024x64x64, .f32⟩
  | .local _ .vmem, ⟨0, _⟩ => ⟨S3x64x128, .f32⟩
  | .local _ .vmem, ⟨1, _⟩ => ⟨S3x64x128, .f32⟩
  | .local _ .vmem, ⟨2, _⟩ => ⟨S128x128, .f32⟩
  | .local _ .vmem, ⟨3, _⟩ => ⟨S1x1x12288, .f32⟩
  | .local _ .vmem, ⟨4, _⟩ => ⟨S1x1x12288, .f32⟩
  | _, _ => ⟨S1024x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![342], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S1024x64x128_S1026x64x128_020_000_000 : S1024x64x128.Pads (![0, 0, 0] : Fin 3 → Nat) ![2, 0, 0] ![0, 0, 0] S1026x64x128
  h_S_ : 0 < S_.numel
  inb_S3x64x128_S3x64x128_0_0_0 : ∀ a, (![0, 0, 0] : Fin 3 → Nat) a + S3x64x128.size a ≤ S3x64x128.size a
  h_S3x64x128 : 0 < S3x64x128.numel
  shapeCasts_S3x64x128_S3x64x128 : S3x64x128.ShapeCasts S3x64x128
  inb_S128x128_S128x128_0_0 : ∀ a, (![0, 0] : Fin 2 → Nat) a + S128x128.size a ≤ S128x128.size a
  h_S128x128 : 0 < S128x128.numel
  shapeCasts_S3x64x128_S192x128 : S3x64x128.ShapeCasts S192x128
  shapeCasts_S192x128_S3x64x128 : S192x128.ShapeCasts S3x64x128
  shapeCasts_S3x64x128_S3x64x1x128 : S3x64x128.ShapeCasts S3x64x1x128
  shapeCasts_S3x64x128_S3x1x64x128 : S3x64x128.ShapeCasts S3x1x64x128
  broadcasts_S3x64x1x128_S3x64x64x128 : S3x64x1x128.Broadcasts S3x64x64x128
  broadcasts_S3x1x64x128_S3x64x64x128 : S3x1x64x128.Broadcasts S3x64x64x128
  reduces_S3x64x64x128_S3x64x64 : S3x64x64x128.Reduces [3] S3x64x64
  shapeCasts_S3x64x64_S1x1x12288 : S3x64x64.ShapeCasts S1x1x12288
  inb_S1x1x12288_S1x1x12288_0_0_0 : ∀ a, (![0, 0, 0] : Fin 3 → Nat) a + S1x1x12288.size a ≤ S1x1x12288.size a
  h_S1x1x12288 : 0 < S1x1x12288.numel
  shapeCasts_S342x1x12288_S1026x64x64 : S342x1x12288.ShapeCasts S1026x64x64
  slices_S1026x64x64_S1024x64x64_0_0_0 : S1026x64x64.Slices ![0, 0, 0] S1024x64x64
  dot_S192x128_S128x128_S192x128_1_0_0_1_n_n_wf : DotDims.WF S192x128 S128x128 S192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x64x128.size a ≤ S1026x64x128.size a
  hwx0_0 : ∀ i : grid0.Coords, EltTy.bits .f32 = 32 ∨ (Rect.block (s := S1026x64x128) S3x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x12288.size a ≤ S342x1x12288.size a
  hwx0_2 : ∀ i : grid0.Coords, EltTy.bits .f32 = 32 ∨ (Rect.block (s := S342x1x12288) S1x1x12288.size (cc0_transform_2 i) (hinb0_2 i)).WholeWords (EltTy.packing .f32)

variable [Facts₀]

def dot_S192x128_S128x128_S192x128_1_0_0_1_n_n : DotDims S192x128 S128x128 S192x128 where
  lhsContracting := [1]
  rhsContracting := [0]
  lhsNonContracting := [0]
  rhsNonContracting := [1]
  lhsBatch := []
  rhsBatch := []
  wf := dot_S192x128_S128x128_S192x128_1_0_0_1_n_n_wf

abbrev win0_0 : Pipeline.Window sig grid0 :=
  Pipeline.Window.ofSpec (Memref.whole main_v0) S3x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x12288.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.Spec.lean ====
/-
  The mathematics both programs compute, stated once over the extended reals.

  For one sentence (a 64 x 128 block of tokens) and the shared 128 x 128 weight matrix `w`, each token row `x` is
  first normalised entrywise, `log (|x| + 1)`, then projected, `p r = sum over l of log (|x l| + 1) * w l r`, then
  squashed to (0, 1). The result at (i, j) is the Euclidean distance between the squashed projections of rows i and j.

  The two programs differ in two places only:
  * the squashing: one writes the logistic function `1 / (1 + exp (-p))`, the other `1/2 + 1/2 * tanh (p / 2)`;
  * the distance: one sums the squared differences, `sqrt (sum (a k - b k)^2)`, the other expands the square through
    the Gram product and clamps at zero, `sqrt (max (|a|^2 + |b|^2 - 2 * <a, b>) 0)`.
  This module only names the pieces; that the two readings agree is the pair law's module.
-/
import Idealize.ShloMosaic.PureOps.Ideal
import Idealize.ShloMosaic.PureOps.Ideal.Laws
import Idealize.ShloMosaic.Lib.ValueIdx

noncomputable section

namespace Cert.PairDist

open Idealize.ShloMosaic Idealize.ShloMosaic.ValueIdx

/-- The four float words the bodies splat: 1/2, 1, 2 and 0, each an exact dyadic. -/
def c_half : EReal := Ideal.ofBits .f32 0x3F000000#32
def c_one : EReal := Ideal.ofBits .f32 0x3F800000#32
def c_two : EReal := Ideal.ofBits .f32 0x40000000#32
def c_zero : EReal := Ideal.ofBits .f32 0x00000000#32

/-- The entrywise normalisation `log (|x| + 1)`; the absolute value of an extended real is `max x (-x)`. -/
def nrm (x : EReal) : EReal := Ideal.log (max x (-x) + c_one)

/-- Entry `r` of the projection of a token row: the row, normalised, times column `r` of the weights. -/
def proj (w : Fin 128 → Fin 128 → EReal) (xr : Fin 128 → EReal) (r : Fin 128) : EReal :=
  ∑ l : Fin 128, nrm (xr l) * w l r

/-- The squashing written through the hyperbolic tangent: `1/2 + 1/2 * tanh (1/2 * p)`. -/
def actT (p : EReal) : EReal := c_half + c_half * Ideal.tanh (c_half * p)

/-- The squashing written as the logistic function. -/
def actL (p : EReal) : EReal := Ideal.logistic p

/-- The distance through the Gram product: `sqrt (max ((|a|^2 + |b|^2) - 2 * <a, b>) 0)`. -/
def distGram (a b : Fin 128 → EReal) : EReal :=
  Ideal.sqrt (max (((∑ k : Fin 128, a k * a k) + (∑ k : Fin 128, b k * b k)) - c_two * (∑ k : Fin 128, a k * b k)) c_zero)

/-- The distance through the differences: `sqrt (sum over k of (a k - b k) * (a k - b k))`. -/
def distDiff (a b : Fin 128 → EReal) : EReal :=
  Ideal.sqrt (∑ k : Fin 128, (a k - b k) * (a k - b k))

/-- The distance between two token rows as the first program computes it: tanh squashing, Gram distance. -/
def pairT (w : Fin 128 → Fin 128 → EReal) (ri rj : Fin 128 → EReal) : EReal :=
  distGram (fun k => actT (proj w ri k)) (fun k => actT (proj w rj k))

/-- The same distance as the second program computes it: logistic squashing, difference distance. -/
def pairL (w : Fin 128 → Fin 128 → EReal) (ri rj : Fin 128 → EReal) : EReal :=
  distDiff (fun k => actL (proj w ri k)) (fun k => actL (proj w rj k))

/-- The weight array as a matrix of coordinates. -/
def wmat (w : (⟨2, ![128, 128]⟩ : Shape).Idx → EReal) : Fin 128 → Fin 128 → EReal := fun l r => w (ix2 l r)

/-- Token row `s` of sentence `b` of an array of `B` sentences. -/
def row {B : Nat} (x : (⟨3, ![B, 64, 128]⟩ : Shape).Idx → EReal) (b : Fin B) (s : Fin 64) : Fin 128 → EReal :=
  fun l => x (ix3 b s l)

/-- THE RESULT both programs are shown to end at: entry (b, i, j) is the distance between token rows i and j of
    sentence b (spelled the first program's way; the pair law turns it into the second's). -/
def G (x : (⟨3, ![1024, 64, 128]⟩ : Shape).Idx → EReal) (w : (⟨2, ![128, 128]⟩ : Shape).Idx → EReal) :
    (⟨3, ![1024, 64, 64]⟩ : Shape).Idx → EReal :=
  fun i => pairT (wmat w) (row x (i 0) (i 1)) (row x (i 0) (i 2))

end Cert.PairDist

end
-- ==== Proof.KernelBody.lean ====
/-
  What the first program's body stores, read at one entry of its output block.
-/
import proofs.«118532_g2000303751998475_pallasbulk_1269_21_alg».proof.Proof.Gen.KernelIdeal.Skeleton
import proofs.«118532_g2000303751998475_pallasbulk_1269_21_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.PairDist

/-! ## The payload in stages

The stored value is a chain of five stages, each a function of the one before: the normalised block, its projection
(flattened to rows of tokens), the squashed projection put back into sentences, the squared distances through the Gram
product, and the square root laid out token, token, sentence. -/

/-- The loaded block normalised entrywise. -/
def nrmBlk (x0 : Vec Ideal S128x64x128 .f32) : FVec Ideal S128x64x128 .f32 :=
  log (addf (absf x0) (broadcast S128x64x128 (Scalar.ofBits .f32 0x3F800000#32)))

/-- The projection of every token row, the block's sentences laid end to end. -/
def projFlat (V : FVec Ideal S128x64x128 .f32) (x1 : FVec Ideal S128x128 .f32) : FVec Ideal S8192x128 .f32 :=
  matmul dot_S8192x128_S128x128_S8192x128_1_0_0_1_n_n none
    (shapeCast S8192x128 V shapeCasts_S128x64x128_S8192x128) x1 (constant S8192x128 .f32 0x00000000#32)

/-- The squashing of every entry, written through the hyperbolic tangent. -/
def actFlat (P : FVec Ideal S8192x128 .f32) : FVec Ideal S8192x128 .f32 :=
  addf (broadcast S8192x128 (Scalar.ofBits .f32 0x3F000000#32))
    (mulf (broadcast S8192x128 (Scalar.ofBits .f32 0x3F000000#32))
      (tanh (mulf (broadcast S8192x128 (Scalar.ofBits .f32 0x3F000000#32)) P)))

/-- The squashed projections, sentence by sentence. -/
def actBlk (Q : FVec Ideal S8192x128 .f32) : FVec Ideal S128x64x128 .f32 :=
  shapeCast S128x64x128 Q shapeCasts_S8192x128_S128x64x128

/-- Per sentence, the Gram matrix of its token rows. -/
def gram (A : FVec Ideal S128x64x128 .f32) : FVec Ideal S128x64x64 .f32 :=
  matmul dot_S128x64x128_S128x64x128_S128x64x64_2_2_1_1_0_0 none A A (constant S128x64x64 .f32 0x00000000#32)

/-- Per sentence and token, the squared length of its row. -/
def sqn (A : FVec Ideal S128x64x128 .f32) : FVec Ideal S128x64 .f32 :=
  multiReduction .add [2] S128x64 (mulf A A) 0x00000000#32 reduces_S128x64x128_S128x64 (.inl rfl) rfl

/-- The squared distances through the Gram product, before the clamp. -/
def sqd (A : FVec Ideal S128x64x128 .f32) : FVec Ideal S128x64x64 .f32 :=
  subf
    (addf (broadcastTo S128x64x64 (shapeCast S128x64x1 (sqn A) shapeCasts_S128x64_S128x64x1) broadcasts_S128x64x1_S128x64x64)
      (broadcastTo S128x64x64 (shapeCast S128x1x64 (sqn A) shapeCasts_S128x64_S128x1x64) broadcasts_S128x1x64_S128x64x64))
    (mulf (broadcast S128x64x64 (Scalar.ofBits .f32 0x40000000#32)) (gram A))

/-- The clamp and the root, and the block turned to the layout token, token, sentence. -/
def outOf (D : FVec Ideal S128x64x64 .f32) : FVec Ideal S64x64x128 .f32 :=
  shapeCast S64x64x128
    (sqrt (maximumf
      (transpose S4096x128 [1, 0] (shapeCast S128x4096 D shapeCasts_S128x64x64_S128x4096) transposes_S128x4096_p1_0_S4096x128)
      (broadcast S4096x128 (Scalar.ofBits .f32 0x00000000#32))))
    shapeCasts_S4096x128_S64x64x128

/-- The payload is the five stages composed. -/
theorem pay_eq_stages (x0 : Vec Ideal S128x64x128 .f32) (x1 : Vec Ideal S128x128 .f32) :
    k0_pay1 (F := Ideal) x0 x1 = outOf (sqd (actBlk (actFlat (projFlat (nrmBlk x0) x1)))) := rfl

/-- The normalised block at an entry. -/
theorem nrmBlk_apply (x0 : Vec Ideal S128x64x128 .f32) (b : Fin 128) (s : Fin 64) (l : Fin 128) :
    nrmBlk x0 (ix3 b s l) = nrm (x0 (ix3 b s l)) := rfl

/-- The squashing at an entry. -/
theorem actFlat_apply (P : FVec Ideal S8192x128 .f32) (r : Fin 8192) (c : Fin 128) :
    actFlat P (ix2 r c) = actT (P (ix2 r c)) := rfl

/-! ## The reshapes, read at an entry -/

/-- The block's sentences laid end to end: row `b * 64 + s` of the flat array is token row `s` of sentence `b`. -/
theorem flat_apply (V : FVec Ideal S128x64x128 .f32) (b : Fin 128) (s : Fin 64) (l : Fin 128) (r : Fin 8192)
    (hr : r.val = b.val * 64 + s.val) :
    shapeCast S8192x128 V shapeCasts_S128x64x128_S8192x128 (ix2 r l) = V (ix3 b s l) :=
  shapeCast_apply V shapeCasts_S128x64x128_S8192x128 (ix2 r l) (ix3 b s l) (by
    rw [Shape.rowMajor_val_three, Shape.rowMajor_val_two]
    show (b.val * 64 + s.val) * 128 + l.val = r.val * 128 + l.val
    rw [hr])

/-- And back: token row `s` of sentence `b` is row `b * 64 + s` of the flat array. -/
theorem actBlk_apply (Q : FVec Ideal S8192x128 .f32) (b : Fin 128) (s : Fin 64) (k : Fin 128) (r : Fin 8192)
    (hr : r.val = b.val * 64 + s.val) :
    actBlk Q (ix3 b s k) = Q (ix2 r k) :=
  shapeCast_apply Q shapeCasts_S8192x128_S128x64x128 (ix3 b s k) (ix2 r k) (by
    rw [Shape.rowMajor_val_three, Shape.rowMajor_val_two]
    show r.val * 128 + k.val = (b.val * 64 + s.val) * 128 + k.val
    rw [hr])

/-- A per-token quantity copied along the second token axis. -/
theorem bcast_first_apply (v : FVec Ideal S128x64 .f32) (b : Fin 128) (i j : Fin 64) :
    broadcastTo S128x64x64 (shapeCast S128x64x1 v shapeCasts_S128x64_S128x64x1) broadcasts_S128x64x1_S128x64x64 (ix3 b i j)
      = v (ix2 b i) := by
  refine (broadcastTo_apply _ broadcasts_S128x64x1_S128x64x64 (ix3 b i j) (ix3 b i (0 : Fin 1)) fun ax => ?_).trans ?_
  · match ax with
    | ⟨0, _⟩ => rfl
    | ⟨1, _⟩ => rfl
    | ⟨2, _⟩ => rfl
  · exact shapeCast_apply v shapeCasts_S128x64_S128x64x1 (ix3 b i (0 : Fin 1)) (ix2 b i) (by
      rw [Shape.rowMajor_val_three, Shape.rowMajor_val_two]
      show b.val * 64 + i.val = (b.val * 64 + i.val) * 1 + 0
      omega)

/-- The same quantity copied along the first token axis. -/
theorem bcast_second_apply (v : FVec Ideal S128x64 .f32) (b : Fin 128) (i j : Fin 64) :
    broadcastTo S128x64x64 (shapeCast S128x1x64 v shapeCasts_S128x64_S128x1x64) broadcasts_S128x1x64_S128x64x64 (ix3 b i j)
      = v (ix2 b j) := by
  refine (broadcastTo_apply _ broadcasts_S128x1x64_S128x64x64 (ix3 b i j) (ix3 b (0 : Fin 1) j) fun ax => ?_).trans ?_
  · match ax with
    | ⟨0, _⟩ => rfl
    | ⟨1, _⟩ => rfl
    | ⟨2, _⟩ => rfl
  · exact shapeCast_apply v shapeCasts_S128x64_S128x1x64 (ix3 b (0 : Fin 1) j) (ix2 b j) (by
      rw [Shape.rowMajor_val_three, Shape.rowMajor_val_two]
      show b.val * 64 + j.val = (b.val * 1 + 0) * 64 + j.val
      omega)

/-- The last stage at an entry: the clamp and the root of the squared distance of tokens `i`, `j` of sentence `b`. -/
theorem outOf_apply (D : FVec Ideal S128x64x64 .f32) (i j : Fin 64) (b : Fin 128) :
    outOf D (ix3 i j b) = Ideal.sqrt (max (D (ix3 b i j)) c_zero) := by
  have hq : i.val * 64 + j.val < 4096 := by have := i.isLt; have := j.isLt; omega
  have e1 := shapeCast_apply
    (sqrt (maximumf
      (transpose S4096x128 [1, 0] (shapeCast S128x4096 D shapeCasts_S128x64x64_S128x4096) transposes_S128x4096_p1_0_S4096x128)
      (broadcast S4096x128 (Scalar.ofBits (F := Ideal) .f32 0x00000000#32))))
    shapeCasts_S4096x128_S64x64x128 (ix3 i j b) (ix2 (⟨i.val * 64 + j.val, hq⟩ : Fin 4096) b) (by
      rw [Shape.rowMajor_val_three, Shape.rowMajor_val_two]
      rfl)
  have e2 := transpose_ix2_apply (shapeCast S128x4096 D shapeCasts_S128x64x64_S128x4096)
    transposes_S128x4096_p1_0_S4096x128 (⟨i.val * 64 + j.val, hq⟩ : Fin 4096) b
  have e3 := shapeCast_apply D shapeCasts_S128x64x64_S128x4096 (ix2 b (⟨i.val * 64 + j.val, hq⟩ : Fin 4096)) (ix3 b i j) (by
    rw [Shape.rowMajor_val_three, Shape.rowMajor_val_two]
    show (b.val * 64 + i.val) * 64 + j.val = b.val * 4096 + (i.val * 64 + j.val)
    omega)
  refine e1.trans ?_
  show Ideal.sqrt (max (transpose S4096x128 [1, 0] (shapeCast S128x4096 D shapeCasts_S128x64x64_S128x4096)
      transposes_S128x4096_p1_0_S4096x128 (ix2 (⟨i.val * 64 + j.val, hq⟩ : Fin 4096) b)) c_zero) = _
  rw [e2, e3]

/-! ## The two products, read at an entry

Each contracts one axis, so the contraction index is one coordinate; the operand indices are named axis by axis. -/

/-- The projection's left operand index keeps the row … -/
theorem proj_lhs_0 (j : S8192x128.Idx) (k : dot_S8192x128_S128x128_S8192x128_1_0_0_1_n_n.contr.Idx) :
    (dot_S8192x128_S128x128_S8192x128_1_0_0_1_n_n.lhsIdx j k 0).val = (j 0).val := by
  simp [DotDims.lhsIdx, dot_S8192x128_S128x128_S8192x128_1_0_0_1_n_n]; rfl
/-- … and takes the contracted coordinate on its second axis. -/
theorem proj_lhs_1 (j : S8192x128.Idx) (k : dot_S8192x128_S128x128_S8192x128_1_0_0_1_n_n.contr.Idx) :
    (dot_S8192x128_S128x128_S8192x128_1_0_0_1_n_n.lhsIdx j k 1).val = (k ⟨0, by decide⟩).val :=
  dot_S8192x128_S128x128_S8192x128_1_0_0_1_n_n.lhsIdx_val_of_single (cl := 1) rfl j k
/-- The weights are read at the contracted coordinate … -/
theorem proj_rhs_0 (j : S8192x128.Idx) (k : dot_S8192x128_S128x128_S8192x128_1_0_0_1_n_n.contr.Idx) :
    (dot_S8192x128_S128x128_S8192x128_1_0_0_1_n_n.rhsIdx j k 0).val = (k ⟨0, by decide⟩).val :=
  dot_S8192x128_S128x128_S8192x128_1_0_0_1_n_n.rhsIdx_val_of_single (cr := 0) rfl j k
/-- … and the result's column. -/
theorem proj_rhs_1 (j : S8192x128.Idx) (k : dot_S8192x128_S128x128_S8192x128_1_0_0_1_n_n.contr.Idx) :
    (dot_S8192x128_S128x128_S8192x128_1_0_0_1_n_n.rhsIdx j k 1).val = (j 1).val := by
  simp [DotDims.rhsIdx, dot_S8192x128_S128x128_S8192x128_1_0_0_1_n_n]; rfl

/-- The product of the flat rows with the weights, into the zero array: entry (r, c) is the sum over `l` of row `r`
    at `l` times the weights at (l, c). -/
theorem mm_proj_apply (A : FVec Ideal S8192x128 .f32) (W : FVec Ideal S128x128 .f32) (r : Fin 8192) (c : Fin 128) :
    matmul dot_S8192x128_S128x128_S8192x128_1_0_0_1_n_n none A W (constant S8192x128 .f32 0x00000000#32) (ix2 r c)
      = ∑ l : Fin 128, A (ix2 r l) * W (ix2 l c) := by
  refine (Ideal.matmul_constant_zero_apply dot_S8192x128_S128x128_S8192x128_1_0_0_1_n_n none A W (ix2 r c)).trans ?_
  rw [← Equiv.sum_comp (contrEquiv1 dot_S8192x128_S128x128_S8192x128_1_0_0_1_n_n 128 rfl rfl).symm]
  refine Finset.sum_congr rfl fun l _ => ?_
  have hk := contrEquiv1_symm_val dot_S8192x128_S128x128_S8192x128_1_0_0_1_n_n 128 rfl rfl l
  have el : dot_S8192x128_S128x128_S8192x128_1_0_0_1_n_n.lhsIdx (ix2 r c)
      ((contrEquiv1 dot_S8192x128_S128x128_S8192x128_1_0_0_1_n_n 128 rfl rfl).symm l) = ix2 r l := by
    funext ax; apply Fin.ext
    match ax with
    | ⟨0, _⟩ => exact proj_lhs_0 _ _
    | ⟨1, _⟩ => exact (proj_lhs_1 _ _).trans hk
  have er : dot_S8192x128_S128x128_S8192x128_1_0_0_1_n_n.rhsIdx (ix2 r c)
      ((contrEquiv1 dot_S8192x128_S128x128_S8192x128_1_0_0_1_n_n 128 rfl rfl).symm l) = ix2 l c := by
    funext ax; apply Fin.ext
    match ax with
    | ⟨0, _⟩ => exact (proj_rhs_0 _ _).trans hk
    | ⟨1, _⟩ => exact proj_rhs_1 _ _
  rw [el, er]

/-- The Gram product's left operand index keeps the sentence … -/
theorem gram_lhs_0 (j : S128x64x64.Idx) (k : dot_S128x64x128_S128x64x128_S128x64x64_2_2_1_1_0_0.contr.Idx) :
    (dot_S128x64x128_S128x64x128_S128x64x64_2_2_1_1_0_0.lhsIdx j k 0).val = (j 0).val := by
  simp [DotDims.lhsIdx, dot_S128x64x128_S128x64x128_S128x64x64_2_2_1_1_0_0]; rfl
/-- … reads the first token … -/
theorem gram_lhs_1 (j : S128x64x64.Idx) (k : dot_S128x64x128_S128x64x128_S128x64x64_2_2_1_1_0_0.contr.Idx) :
    (dot_S128x64x128_S128x64x128_S128x64x64_2_2_1_1_0_0.lhsIdx j k 1).val = (j 1).val := by
  simp [DotDims.lhsIdx, dot_S128x64x128_S128x64x128_S128x64x64_2_2_1_1_0_0]; rfl
/-- … and takes the contracted coordinate on its last axis. -/
theorem gram_lhs_2 (j : S128x64x64.Idx) (k : dot_S128x64x128_S128x64x128_S128x64x64_2_2_1_1_0_0.contr.Idx) :
    (dot_S128x64x128_S128x64x128_S128x64x64_2_2_1_1_0_0.lhsIdx j k 2).val = (k ⟨0, by decide⟩).val :=
  dot_S128x64x128_S128x64x128_S128x64x64_2_2_1_1_0_0.lhsIdx_val_of_single (cl := 2) rfl j k
/-- The right operand index keeps the sentence … -/
theorem gram_rhs_0 (j : S128x64x64.Idx) (k : dot_S128x64x128_S128x64x128_S128x64x64_2_2_1_1_0_0.contr.Idx) :
    (dot_S128x64x128_S128x64x128_S128x64x64_2_2_1_1_0_0.rhsIdx j k 0).val = (j 0).val := by
  simp [DotDims.rhsIdx, dot_S128x64x128_S128x64x128_S128x64x64_2_2_1_1_0_0]; rfl
/-- … reads the second token … -/
theorem gram_rhs_1 (j : S128x64x64.Idx) (k : dot_S128x64x128_S128x64x128_S128x64x64_2_2_1_1_0_0.contr.Idx) :
    (dot_S128x64x128_S128x64x128_S128x64x64_2_2_1_1_0_0.rhsIdx j k 1).val = (j 2).val := by
  simp [DotDims.rhsIdx, dot_S128x64x128_S128x64x128_S128x64x64_2_2_1_1_0_0]; rfl
/-- … and takes the contracted coordinate on its last axis too. -/
theorem gram_rhs_2 (j : S128x64x64.Idx) (k : dot_S128x64x128_S128x64x128_S128x64x64_2_2_1_1_0_0.contr.Idx) :
    (dot_S128x64x128_S128x64x128_S128x64x64_2_2_1_1_0_0.rhsIdx j k 2).val = (k ⟨0, by decide⟩).val :=
  dot_S128x64x128_S128x64x128_S128x64x64_2_2_1_1_0_0.rhsIdx_val_of_single (cr := 2) rfl j k

/-- The Gram matrix at an entry: the inner product of token rows `i` and `j` of sentence `b`. -/
theorem gram_apply (A : FVec Ideal S128x64x128 .f32) (b : Fin 128) (i j : Fin 64) :
    gram A (ix3 b i j) = ∑ k : Fin 128, A (ix3 b i k) * A (ix3 b j k) := by
  refine (Ideal.matmul_constant_zero_apply dot_S128x64x128_S128x64x128_S128x64x64_2_2_1_1_0_0 none A A (ix3 b i j)).trans ?_
  rw [← Equiv.sum_comp (contrEquiv1 dot_S128x64x128_S128x64x128_S128x64x64_2_2_1_1_0_0 128 rfl rfl).symm]
  refine Finset.sum_congr rfl fun l _ => ?_
  have hk := contrEquiv1_symm_val dot_S128x64x128_S128x64x128_S128x64x64_2_2_1_1_0_0 128 rfl rfl l
  have el : dot_S128x64x128_S128x64x128_S128x64x64_2_2_1_1_0_0.lhsIdx (ix3 b i j)
      ((contrEquiv1 dot_S128x64x128_S128x64x128_S128x64x64_2_2_1_1_0_0 128 rfl rfl).symm l) = ix3 b i l := by
    funext ax; apply Fin.ext
    match ax with
    | ⟨0, _⟩ => exact gram_lhs_0 _ _
    | ⟨1, _⟩ => exact gram_lhs_1 _ _
    | ⟨2, _⟩ => exact (gram_lhs_2 _ _).trans hk
  have er : dot_S128x64x128_S128x64x128_S128x64x64_2_2_1_1_0_0.rhsIdx (ix3 b i j)
      ((contrEquiv1 dot_S128x64x128_S128x64x128_S128x64x64_2_2_1_1_0_0 128 rfl rfl).symm l) = ix3 b j l := by
    funext ax; apply Fin.ext
    match ax with
    | ⟨0, _⟩ => exact gram_rhs_0 _ _
    | ⟨1, _⟩ => exact gram_rhs_1 _ _
    | ⟨2, _⟩ => exact (gram_rhs_2 _ _).trans hk
  rw [el, er]

/-! ## The lane sum, and the squared distance -/

/-- The squared length of token row `s` of sentence `b`. -/
theorem sqn_apply (A : FVec Ideal S128x64x128 .f32) (b : Fin 128) (s : Fin 64) :
    sqn A (ix2 b s) = ∑ k : Fin 128, A (ix3 b s k) * A (ix3 b s k) := by
  refine (Ideal.multiReduction_add_single (mulf A A) 0x00000000#32 reduces_S128x64x128_S128x64 (.inl rfl) rfl (ix2 b s)).trans ?_
  refine Finset.sum_congr rfl fun k _ => ?_
  have e : reduces_S128x64x128_S128x64.lift (ix2 b s) k = ix3 b s k := by
    funext ax; apply Fin.ext
    match ax with
    | ⟨0, _⟩ => rfl
    | ⟨1, _⟩ => rfl
    | ⟨2, _⟩ => rfl
  rw [e]
  rfl

/-- The squared distance of token rows `i` and `j` of sentence `b`, through the Gram product. -/
theorem sqd_apply (A : FVec Ideal S128x64x128 .f32) (b : Fin 128) (i j : Fin 64) :
    sqd A (ix3 b i j)
      = ((∑ k : Fin 128, A (ix3 b i k) * A (ix3 b i k)) + (∑ k : Fin 128, A (ix3 b j k) * A (ix3 b j k)))
        - c_two * (∑ k : Fin 128, A (ix3 b i k) * A (ix3 b j k)) := by
  show (broadcastTo S128x64x64 (shapeCast S128x64x1 (sqn A) shapeCasts_S128x64_S128x64x1) broadcasts_S128x64x1_S128x64x64 (ix3 b i j)
      + broadcastTo S128x64x64 (shapeCast S128x1x64 (sqn A) shapeCasts_S128x64_S128x1x64) broadcasts_S128x1x64_S128x64x64 (ix3 b i j))
      - c_two * gram A (ix3 b i j) = _
  rw [bcast_first_apply, bcast_second_apply, sqn_apply, sqn_apply, gram_apply]

/-- The distance of two token rows of a sentence, from what the rows are. -/
theorem dist_of_rows (A : FVec Ideal S128x64x128 .f32) (b : Fin 128) (i j : Fin 64) (a a' : Fin 128 → EReal)
    (ha : ∀ k, A (ix3 b i k) = a k) (ha' : ∀ k, A (ix3 b j k) = a' k) :
    Ideal.sqrt (max (sqd A (ix3 b i j)) c_zero) = distGram a a' := by
  rw [sqd_apply]
  obtain rfl : (fun k => A (ix3 b i k)) = a := funext ha
  obtain rfl : (fun k => A (ix3 b j k)) = a' := funext ha'
  rfl

/-! ## A token row of the squashed projection -/

/-- Entry `k` of token row `s` of sentence `b` after the squashing: the squashed projection of that token row of the
    loaded block. -/
theorem act_row (x0 : Vec Ideal S128x64x128 .f32) (x1 : FVec Ideal S128x128 .f32) (b : Fin 128) (s : Fin 64) (k : Fin 128) :
    actBlk (actFlat (projFlat (nrmBlk x0) x1)) (ix3 b s k)
      = actT (proj (fun l r => x1 (ix2 l r)) (fun l => x0 (ix3 b s l)) k) := by
  have hr : b.val * 64 + s.val < 8192 := by have := b.isLt; have := s.isLt; omega
  rw [actBlk_apply _ b s k (⟨b.val * 64 + s.val, hr⟩ : Fin 8192) rfl, actFlat_apply]
  refine congrArg actT ?_
  refine (mm_proj_apply _ x1 _ k).trans ?_
  refine Finset.sum_congr rfl fun l _ => ?_
  rw [flat_apply (nrmBlk x0) b s l (⟨b.val * 64 + s.val, hr⟩ : Fin 8192) rfl, nrmBlk_apply]

/-- Entry (i, j, b) of the stored block — the block is laid out token, token, sentence — is the distance between
    token rows i and j of sentence b of the loaded block, against the loaded weights. -/
theorem pay_apply (x0 : Vec Ideal S128x64x128 .f32) (x1 : Vec Ideal S128x128 .f32) (i j : Fin 64) (b : Fin 128) :
    k0_pay1 (F := Ideal) x0 x1 (ix3 i j b)
      = pairT (fun l r => x1 (ix2 l r)) (fun l => x0 (ix3 b i l)) (fun l => x0 (ix3 b j l)) := by
  rw [pay_eq_stages, outOf_apply]
  exact dist_of_rows _ b i j _ _ (fun k => act_row x0 x1 b i k) (fun k => act_row x0 x1 b j k)

end Cert.KernelIdeal.Body

end
-- ==== Proof.KernelValue.lean ====
/-
  The first program's run, read: its result array holds, at (b, i, j), the distance between token rows i and j of
  sentence b of the argument.

  The grid has 8 points; point t stages sentences 128 q .. 128 q + 127 (q the point's block number, 0 .. 7), the whole
  weight matrix, and writes back the [64, 64, 128] slab of the token-token-sentence array whose last axis is that same
  range of sentences. So every entry (i, j, b') of that array is written by exactly the point with q = b' / 128, from
  rows i and j of sentence b' of the argument. The one operation after the launch moves the sentence axis to the front.
-/
import proofs.«118532_g2000303751998475_pallasbulk_1269_21_alg».proof.Proof.Gen.KernelIdeal.Frame
import proofs.«118532_g2000303751998475_pallasbulk_1269_21_alg».proof.Proof.KernelBody
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.PairDist Idealize.ShloMosaic.ValueIdx

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The two argument arrays as launched, as functions of their indices. -/
abbrev xarr (c : Dev nD) : S1024x64x128.Idx → EReal := m ((c : Thread nD τ).loc main_arg0)
abbrev warr (c : Dev nD) : S128x128.Idx → EReal := m ((c : Thread nD τ).loc main_arg1)

/-- The token-token-sentence array the launch fills: entry (i, j, b') is the distance between rows i and j of
    sentence b'. -/
def mid (c : Dev nD) : S64x64x1024.Idx → EReal :=
  fun i => pairT (wmat (warr m c)) (row (xarr m c) (i 2) (i 0)) (row (xarr m c) (i 2) (i 1))

/-- The printed index maps over the 8 points: the sentence block the input window stages is the one the output
    window writes on its last axis, every other block coordinate is 0, and the block number is at most 7. -/
theorem idx_facts : ∀ t : Fin cfg0.N,
    win0_0.index t (0 : Fin 3) = win0_2.index t (2 : Fin 3)
    ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0
    ∧ win0_2.index t (2 : Fin 3) ≤ 7 :=
  (by decide +kernel : ∀ t : Fin grid0.N, _)

/-- Every block number 0 .. 7 is some point's. -/
theorem idx_onto : ∀ q : Fin 8, ∃ t : Fin cfg0.N, win0_2.index t (2 : Fin 3) = q.val :=
  (by decide +kernel : ∀ q : Fin 8, ∃ t : Fin grid0.N, win0_2.index t (2 : Fin 3) = q.val)

/-- The input window's block at point t is sentences 128 q .. 128 q + 127 of the argument. -/
theorem iblk0_apply (c : Dev nD) (t : Fin cfg0.N) (y : S128x64x128.Idx) (k : S1024x64x128.Idx)
    (h0 : (k 0).val = win0_2.index t (2 : Fin 3) * 128 + (y 0).val) (h1 : (k 1).val = (y 1).val) (h2 : (k 2).val = (y 2).val) :
    (iblk m c 0 t : Vec Ideal S128x64x128 .f32) y = xarr m c k := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t 0 * 128 + 1 * (y 0).val = (k 0).val; rw [e0, h0]; omega
  | ⟨1, _⟩ => show win0_0.index t 1 * 64 + 1 * (y 1).val = (k 1).val; rw [e1, h1]; omega
  | ⟨2, _⟩ => show win0_0.index t 2 * 128 + 1 * (y 2).val = (k 2).val; rw [e2, h2]; omega

/-- The weight window's block is the whole weight matrix at every point. -/
theorem iblk1_apply (c : Dev nD) (t : Fin cfg0.N) (y : S128x128.Idx) :
    (iblk m c 1 t : Vec Ideal S128x128 .f32) y = warr m c y := by
  obtain ⟨-, -, -, e3, e4, -⟩ := idx_facts t
  unfold iblk
  rw [View.read_apply]
  show V m c main_arg1 _ = m (c.tc.loc main_arg1) _
  unfold V
  congr 1
  funext a
  apply Fin.ext
  match a with
  | ⟨0, _⟩ => show win0_1.index t 0 * 128 + 1 * (y 0).val = (y 0).val; rw [e3]; omega
  | ⟨1, _⟩ => show win0_1.index t 1 * 128 + 1 * (y 1).val = (y 1).val; rw [e4]; omega

/-- WHAT POINT t WRITES BACK is its slab of `mid`. -/
theorem flushed_eq (c : Dev nD) (t : Fin cfg0.N) :
    (dats m 0 c).flushed 2 t = ((cfg0.win 2).blk t).view.read (Elt Ideal) (mid m c) := by
  show (cfg0.win 2).cut (grid0.coords t) ((dats m 0 c).after 2 t) = _
  rw [after0_2]
  unfold out0_2
  rw [View.canon_unit_zero hz3]
  simp only [View.ld_unit_zero (S := S128x64x128) hz3, View.ld_unit_zero (S := S128x128) hz2]
  obtain ⟨-, -, -, -, -, e5, e6, -⟩ := idx_facts t
  refine funext fun (y : S64x64x128.Idx) => ?_
  obtain ⟨i, j, b, rfl⟩ : ∃ (i j : Fin 64) (b : Fin 128), y = ix3 i j b := ⟨y 0, y 1, y 2, eq_ix3 y⟩
  refine (Body.pay_apply _ _ i j b).trans ?_
  show pairT _ _ _ = mid m c (((cfg0.win 2).blk t).view.emb (ix3 i j b))
  unfold mid
  have k0 : ((((cfg0.win 2).blk t).view.emb (ix3 i j b)) 0).val = i.val := by
    show win0_2.index t 0 * 64 + 1 * i.val = i.val; rw [e5]; omega
  have k1 : ((((cfg0.win 2).blk t).view.emb (ix3 i j b)) 1).val = j.val := by
    show win0_2.index t 1 * 64 + 1 * j.val = j.val; rw [e6]; omega
  have k2 : ((((cfg0.win 2).blk t).view.emb (ix3 i j b)) 2).val = win0_2.index t (2 : Fin 3) * 128 + b.val := by
    show win0_2.index t 2 * 128 + 1 * b.val = _; omega
  have hw : (fun l r => (iblk m c 1 t : Vec Ideal S128x128 .f32) (ix2 l r)) = wmat (warr m c) :=
    funext fun l => funext fun r => iblk1_apply m c t (ix2 l r)
  have hi : (fun l => (iblk m c 0 t : Vec Ideal S128x64x128 .f32) (ix3 b i l))
      = row (xarr m c) ((((cfg0.win 2).blk t).view.emb (ix3 i j b)) 2) ((((cfg0.win 2).blk t).view.emb (ix3 i j b)) 0) :=
    funext fun l => iblk0_apply m c t (ix3 b i l) (ix3 _ _ l) k2 k0 rfl
  have hj : (fun l => (iblk m c 0 t : Vec Ideal S128x64x128 .f32) (ix3 b j l))
      = row (xarr m c) ((((cfg0.win 2).blk t).view.emb (ix3 i j b)) 2) ((((cfg0.win 2).blk t).view.emb (ix3 i j b)) 1) :=
    funext fun l => iblk0_apply m c t (ix3 b j l) (ix3 _ _ l) k2 k1 rfl
  exact congr (congr (congrArg pairT hw) hi) hj

/-- An index of the token-token-sentence array is in point t's slab iff each coordinate is in the slab's range. -/
theorem mem_blk (t : Fin cfg0.N) (i : S64x64x1024.Idx) :
    i ∈ ((cfg0.win 2).blk t).view.set ↔ ∀ a : Fin 3, win0_2.index t a * S64x64x128.size a ≤ (i a).val ∧ (i a).val < win0_2.index t a * S64x64x128.size a + S64x64x128.size a := by
  show i ∈ ((View.whole main_v0).slice (win0_2.rect t)).set ↔ _
  rw [View.set_slice_whole, Rect.mem_set_unit]
  exact Iff.rfl

/-- Every entry of the array is in the slab of the point whose block number is the sentence divided by 128. -/
theorem cover (i : S64x64x1024.Idx) : ∃ t : Fin cfg0.N, (cfg0.win 2).flush t = true ∧ i ∈ ((cfg0.win 2).blk t).view.set := by
  have hi0 : (i 0).val < 64 := (i 0).isLt
  have hi1 : (i 1).val < 64 := (i 1).isLt
  have hi2 : (i 2).val < 1024 := (i 2).isLt
  obtain ⟨t, ht⟩ := idx_onto ⟨(i 2).val / 128, by omega⟩
  have q2 : win0_2.index t (2 : Fin 3) = (i 2).val / 128 := ht
  obtain ⟨-, -, -, -, -, e5, e6, -⟩ := idx_facts t
  refine ⟨t, flush0_2 t, ?_⟩
  rw [mem_blk]
  intro a
  match a with
  | ⟨0, _⟩ => show win0_2.index t (0 : Fin 3) * 64 ≤ (i 0).val ∧ (i 0).val < win0_2.index t (0 : Fin 3) * 64 + 64; omega
  | ⟨1, _⟩ => show win0_2.index t (1 : Fin 3) * 64 ≤ (i 1).val ∧ (i 1).val < win0_2.index t (1 : Fin 3) * 64 + 64; omega
  | ⟨2, _⟩ => show win0_2.index t (2 : Fin 3) * 128 ≤ (i 2).val ∧ (i 2).val < win0_2.index t (2 : Fin 3) * 128 + 128; omega

/-- THE ARRAY THE LAUNCH LEAVES is `mid`. -/
theorem final (c : Dev nD) : (dats m 0 c).arrAt 2 cfg0.N = mid m c :=
  (dats m 0 c).arrAt_eq_of_cover 2 (mid m c) (fun t _ => flushed_eq m c t) cover

/-- The operation after the launch moves the sentence axis to the front: the result at (b, i, j) is `mid` at (i, j, b),
    which is `G` of the arguments there. -/
theorem tail_eq (c : Dev nD) :
    Pipeline.afterTail₀ cfgs (dats m) 0 (V0 m) [hostOps1] c main_v1 = G (xarr m c) (warr m c) := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.tc.devRef main_v0) = mid m c :=
    (Pipeline.withArrays_arr spec0 launch0.win.arr_inj c _ _ 2).trans (final m c)
  rw [hA]
  funext idx
  obtain ⟨b, i, j, rfl⟩ : ∃ (b : Fin 1024) (i j : Fin 64), idx = ix3 b i j := ⟨idx 0, idx 1, idx 2, eq_ix3 idx⟩
  refine (transpose_apply [2, 0, 1] (mid m c) transposes_S64x64x1024_S1024x64x64_2_0_1 (ix3 b i j) (ix3 i j b) (fun a => ?_)).trans ?_
  · match a with
    | ⟨0, _⟩ => rfl
    | ⟨1, _⟩ => rfl
    | ⟨2, _⟩ => rfl
  · rfl

/-- THE RUN, READ: every weakly fair execution ends with the result array at `G` of the two arguments and the
    arguments unchanged. -/
theorem run : θ_run defs (onTc (τ := τ) (main (F := Ideal))) ⟨m, fun _ => 0, ρ⟩ fun r => ∀ c : Dev nD,
      r.2.mem ((c : Thread nD τ).loc main_v1) = G (xarr m c) (warr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v1 (Pipeline.mem_restRefs_of main_v1 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.RunValue

end
-- ==== Proof.RefBody.lean ====
/-
  What the second program's body stores, read at one entry of its output block.
-/
import proofs.«118532_g2000303751998475_pallasbulk_1269_21_alg».proof.Proof.Gen.ReferenceIdeal.Skeleton
import proofs.«118532_g2000303751998475_pallasbulk_1269_21_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Body

open Idealize.ShloMosaic Idealize.ShloMosaic.ValueIdx Cert.ReferenceIdeal Cert.ReferenceIdeal.Gen Cert.PairDist

/-- Rows of the block stacked: row b * 64 + s of the [192, 128] view is token row s of sentence b. -/
theorem stack_apply {α : Type} (v : S3x64x128.Idx → α) (h : S3x64x128.ShapeCasts S192x128)
    (b : Fin 3) (s : Fin 64) (r : Fin 192) (l : Fin 128) (hr : r.val = b.val * 64 + s.val) :
    shapeCast S192x128 v h (ix2 r l) = v (ix3 b s l) := by
  refine shapeCast_apply v h (ix2 r l) (ix3 b s l) ?_
  rw [Shape.rowMajor_val_three, Shape.rowMajor_val_two]
  show (b.val * 64 + s.val) * 128 + l.val = r.val * 128 + l.val
  omega

/-- and unstacked again. -/
theorem unstack_apply {α : Type} (v : S192x128.Idx → α) (h : S192x128.ShapeCasts S3x64x128)
    (b : Fin 3) (s : Fin 64) (r : Fin 192) (l : Fin 128) (hr : r.val = b.val * 64 + s.val) :
    shapeCast S3x64x128 v h (ix3 b s l) = v (ix2 r l) := by
  refine shapeCast_apply v h (ix3 b s l) (ix2 r l) ?_
  rw [Shape.rowMajor_val_three, Shape.rowMajor_val_two]
  show r.val * 128 + l.val = (b.val * 64 + s.val) * 128 + l.val
  omega

/-- The row operand spread along a new third axis: at (b, i, j, k) it is the block at (b, i, k). -/
theorem spread_row {α : Type} (v : S3x64x128.Idx → α) (h : S3x64x128.ShapeCasts S3x64x1x128)
    (h' : S3x64x1x128.Broadcasts S3x64x64x128) (b : Fin 3) (i j : Fin 64) (k : Fin 128) :
    broadcastTo S3x64x64x128 (shapeCast S3x64x1x128 v h) h' (ix4 b i j k) = v (ix3 b i k) := by
  refine (broadcastTo_apply _ h' (ix4 b i j k) (ix4 b i (0 : Fin 1) k) ?_).trans ?_
  · intro a
    match a with
    | ⟨0, _⟩ => rfl
    | ⟨1, _⟩ => rfl
    | ⟨2, _⟩ => rfl
    | ⟨3, _⟩ => rfl
  · refine shapeCast_apply v h _ (ix3 b i k) ?_
    rw [Shape.rowMajor_val_three, Shape.rowMajor_val_four]
    show (b.val * 64 + i.val) * 128 + k.val = ((b.val * 64 + i.val) * 1 + 0) * 128 + k.val
    omega

/-- The column operand spread along a new second axis: at (b, i, j, k) it is the block at (b, j, k). -/
theorem spread_col {α : Type} (v : S3x64x128.Idx → α) (h : S3x64x128.ShapeCasts S3x1x64x128)
    (h' : S3x1x64x128.Broadcasts S3x64x64x128) (b : Fin 3) (i j : Fin 64) (k : Fin 128) :
    broadcastTo S3x64x64x128 (shapeCast S3x1x64x128 v h) h' (ix4 b i j k) = v (ix3 b j k) := by
  refine (broadcastTo_apply _ h' (ix4 b i j k) (ix4 b (0 : Fin 1) j k) ?_).trans ?_
  · intro a
    match a with
    | ⟨0, _⟩ => rfl
    | ⟨1, _⟩ => rfl
    | ⟨2, _⟩ => rfl
    | ⟨3, _⟩ => rfl
  · refine shapeCast_apply v h _ (ix3 b j k) ?_
    rw [Shape.rowMajor_val_three, Shape.rowMajor_val_four]
    show (b.val * 64 + j.val) * 128 + k.val = ((b.val * 1 + 0) * 64 + j.val) * 128 + k.val
    omega

/-- The lane sum: at (b, i, j) the sum over k of the source at (b, i, j, k). -/
theorem lane_sum (src : FVec Ideal S3x64x64x128 .f32) (h : S3x64x64x128.Reduces [3] S3x64x64) (hφ : FKind.Formats .f32)
    (hacc : (0x00000000#32 : BitVec 32) = 0x00000000#32) (b : Fin 3) (i j : Fin 64) :
    multiReduction .add [3] S3x64x64 src 0x00000000#32 h hφ hacc (ix3 b i j) = ∑ k : Fin 128, src (ix4 b i j k) := by
  refine (Ideal.multiReduction_add_single src 0x00000000#32 h hφ hacc (ix3 b i j)).trans ?_
  refine Finset.sum_congr rfl fun k _ => congrArg src (funext fun a => Fin.ext ?_)
  match a with
  | ⟨0, _⟩ => rfl
  | ⟨1, _⟩ => rfl
  | ⟨2, _⟩ => rfl
  | ⟨3, _⟩ => rfl

/-- The stored lane row: flat position b * 4096 + i * 64 + j holds entry (b, i, j). -/
theorem flat_apply {α : Type} (v : S3x64x64.Idx → α) (h : S3x64x64.ShapeCasts S1x1x12288)
    (b : Fin 3) (i j : Fin 64) (f : Fin 12288) (hf : f.val = b.val * 4096 + i.val * 64 + j.val) :
    shapeCast S1x1x12288 v h (ix3 (0 : Fin 1) (0 : Fin 1) f) = v (ix3 b i j) := by
  refine shapeCast_apply v h _ (ix3 b i j) ?_
  rw [Shape.rowMajor_val_three, Shape.rowMajor_val_three]
  show (b.val * 64 + i.val) * 64 + j.val = (0 * 1 + 0) * 12288 + f.val
  omega

/-- The four coordinate readings of the product's operand indices: the left operand is read at (row, contracted),
    the right at (contracted, column). -/
theorem lhs_row (i : S192x128.Idx) (q : dot_S192x128_S128x128_S192x128_1_0_0_1_n_n.contr.Idx) :
    (dot_S192x128_S128x128_S192x128_1_0_0_1_n_n.lhsIdx i q 0).val = (i 0).val := by
  unfold DotDims.lhsIdx
  rw [dif_neg (show ¬(0 : Fin S192x128.rank) ∈ dot_S192x128_S128x128_S192x128_1_0_0_1_n_n.lhsBatch by decide),
    dif_pos (show (0 : Fin S192x128.rank) ∈ dot_S192x128_S128x128_S192x128_1_0_0_1_n_n.lhsNonContracting by decide)]
  rfl
theorem lhs_contr (i : S192x128.Idx) (q : dot_S192x128_S128x128_S192x128_1_0_0_1_n_n.contr.Idx) :
    (dot_S192x128_S128x128_S192x128_1_0_0_1_n_n.lhsIdx i q 1).val = (q ⟨0, by decide⟩).val :=
  dot_S192x128_S128x128_S192x128_1_0_0_1_n_n.lhsIdx_val_of_single rfl i q
theorem rhs_contr (i : S192x128.Idx) (q : dot_S192x128_S128x128_S192x128_1_0_0_1_n_n.contr.Idx) :
    (dot_S192x128_S128x128_S192x128_1_0_0_1_n_n.rhsIdx i q 0).val = (q ⟨0, by decide⟩).val :=
  dot_S192x128_S128x128_S192x128_1_0_0_1_n_n.rhsIdx_val_of_single rfl i q
theorem rhs_col (i : S192x128.Idx) (q : dot_S192x128_S128x128_S192x128_1_0_0_1_n_n.contr.Idx) :
    (dot_S192x128_S128x128_S192x128_1_0_0_1_n_n.rhsIdx i q 1).val = (i 1).val := by
  unfold DotDims.rhsIdx
  rw [dif_neg (show ¬(1 : Fin S128x128.rank) ∈ dot_S192x128_S128x128_S192x128_1_0_0_1_n_n.rhsBatch by decide),
    dif_pos (show (1 : Fin S128x128.rank) ∈ dot_S192x128_S128x128_S192x128_1_0_0_1_n_n.rhsNonContracting by decide)]
  rfl

/-- The product onto the zero splat, read at (r, c): the sum over the 128 lanes of left (r, l) times right (l, c). -/
theorem prod_apply (lhs : FVec Ideal S192x128 .f32) (rhs : FVec Ideal S128x128 .f32) (r : Fin 192) (c : Fin 128) :
    matmul dot_S192x128_S128x128_S192x128_1_0_0_1_n_n none lhs rhs (constant (F := Ideal) S192x128 .f32 0x00000000#32) (ix2 r c)
      = ∑ l : Fin 128, lhs (ix2 r l) * rhs (ix2 l c) := by
  refine (Ideal.matmul_constant_zero_apply dot_S192x128_S128x128_S192x128_1_0_0_1_n_n none lhs rhs (ix2 r c)).trans ?_
  rw [← Equiv.sum_comp (contrEquiv1 dot_S192x128_S128x128_S192x128_1_0_0_1_n_n 128 rfl rfl).symm]
  refine Finset.sum_congr rfl fun l _ => ?_
  have hl := contrEquiv1_symm_val dot_S192x128_S128x128_S192x128_1_0_0_1_n_n 128 rfl rfl l
  have el : dot_S192x128_S128x128_S192x128_1_0_0_1_n_n.lhsIdx (ix2 r c)
      ((contrEquiv1 dot_S192x128_S128x128_S192x128_1_0_0_1_n_n 128 rfl rfl).symm l) = ix2 r l :=
    funext fun a => Fin.ext (by
      match a with
      | ⟨0, _⟩ => exact lhs_row _ _
      | ⟨1, _⟩ => exact (lhs_contr _ _).trans hl)
  have er : dot_S192x128_S128x128_S192x128_1_0_0_1_n_n.rhsIdx (ix2 r c)
      ((contrEquiv1 dot_S192x128_S128x128_S192x128_1_0_0_1_n_n 128 rfl rfl).symm l) = ix2 l c :=
    funext fun a => Fin.ext (by
      match a with
      | ⟨0, _⟩ => exact (rhs_contr _ _).trans hl
      | ⟨1, _⟩ => exact rhs_col _ _)
  rw [el, er]

/-- The squashed projection of the loaded block, read at (b, s, k): the logistic function of the projection of token
    row s of sentence b onto column k of the weights. -/
theorem squash_apply (x0 : FVec Ideal S3x64x128 .f32) (x1 : FVec Ideal S128x128 .f32)
    (h0 : S3x64x128.ShapeCasts S3x64x128) (h1 : S3x64x128.ShapeCasts S192x128) (h2 : S192x128.ShapeCasts S3x64x128)
    (b : Fin 3) (s : Fin 64) (k : Fin 128) :
    shapeCast S3x64x128
        (logistic (matmul dot_S192x128_S128x128_S192x128_1_0_0_1_n_n none
          (shapeCast S192x128 (log (addf (absf (shapeCast S3x64x128 x0 h0))
            (broadcast S3x64x128 (Scalar.ofBits (F := Ideal) .f32 0x3F800000#32)))) h1)
          x1 (constant (F := Ideal) S192x128 .f32 0x00000000#32))) h2 (ix3 b s k)
      = actL (proj (fun l r => x1 (ix2 l r)) (fun l => x0 (ix3 b s l)) k) := by
  have hr : b.val * 64 + s.val < 192 := by have := b.isLt; have := s.isLt; omega
  refine (unstack_apply _ h2 b s ⟨b.val * 64 + s.val, hr⟩ k rfl).trans ?_
  refine congrArg Ideal.logistic ?_
  refine (prod_apply _ _ ⟨b.val * 64 + s.val, hr⟩ k).trans ?_
  refine Finset.sum_congr rfl fun l _ => ?_
  refine congrArg (· * x1 (ix2 l k)) ?_
  refine (stack_apply _ h1 b s ⟨b.val * 64 + s.val, hr⟩ l rfl).trans ?_
  rw [shapeCast_self]
  rfl

/-- The squared difference of the two spread operands, read at (b, i, j, k). -/
theorem sqdiff_apply (v : FVec Ideal S3x64x128 .f32)
    (hr : S3x64x128.ShapeCasts S3x64x1x128) (hr' : S3x64x1x128.Broadcasts S3x64x64x128)
    (hc : S3x64x128.ShapeCasts S3x1x64x128) (hc' : S3x1x64x128.Broadcasts S3x64x64x128)
    (b : Fin 3) (i j : Fin 64) (k : Fin 128) :
    mulf (subf (broadcastTo S3x64x64x128 (shapeCast S3x64x1x128 v hr) hr') (broadcastTo S3x64x64x128 (shapeCast S3x1x64x128 v hc) hc'))
        (subf (broadcastTo S3x64x64x128 (shapeCast S3x64x1x128 v hr) hr') (broadcastTo S3x64x64x128 (shapeCast S3x1x64x128 v hc) hc'))
        (ix4 b i j k)
      = (v (ix3 b i k) - v (ix3 b j k)) * (v (ix3 b i k) - v (ix3 b j k)) :=
  congrArg₂ (fun p q : EReal => (p - q) * (p - q)) (spread_row v hr hr' b i j k) (spread_col v hc hc' b i j k)

/-- The stored block is one flat lane row of 3 * 64 * 64 entries; the entry at flat position
    b * 4096 + i * 64 + j is the distance between token rows i and j of sentence b of the loaded block. -/
theorem pay_apply (x0 : Vec Ideal S3x64x128 .f32) (x1 : Vec Ideal S128x128 .f32) (b : Fin 3) (i j : Fin 64) (f : Fin 12288)
    (hf : f.val = b.val * 4096 + i.val * 64 + j.val) :
    k0_pay1 (F := Ideal) x0 x1 (ix3 (0 : Fin 1) (0 : Fin 1) f)
      = pairL (fun l r => x1 (ix2 l r)) (fun l => x0 (ix3 b i l)) (fun l => x0 (ix3 b j l)) := by
  unfold k0_pay1
  refine (flat_apply _ _ b i j f hf).trans ?_
  refine congrArg Ideal.sqrt ?_
  refine (lane_sum _ _ _ _ b i j).trans ?_
  refine Finset.sum_congr rfl fun k _ => ?_
  refine (sqdiff_apply _ _ _ _ _ b i j k).trans ?_
  exact congrArg₂ (fun p q : EReal => (p - q) * (p - q)) (squash_apply x0 x1 _ _ _ b i k) (squash_apply x0 x1 _ _ _ b j k)

end Cert.ReferenceIdeal.Body

end
-- ==== Proof.PairLaw.lean ====
/-
  The pair law: the two readings of the distance between two token rows agree on every extended real input.

  The argument has three parts. The two squashings are the same function on the whole extended line (a real identity
  between the hyperbolic tangent and the exponential, and a direct evaluation at the two infinities). That common
  squashing only ever takes real values, so both distances are taken between REAL vectors, where subtraction and
  multiplication behave. For real vectors the Gram expansion `|a|^2 + |b|^2 - 2 <a, b>` is the sum of the squared
  differences, which is nonnegative, so the clamp at zero does nothing.
-/
import proofs.«118532_g2000303751998475_pallasbulk_1269_21_alg».proof.Proof.Spec

noncomputable section

namespace Cert.PairDist

open Idealize.ShloMosaic

/-! ### The float words as reals -/

/-- The word of one half denotes the real `1/2`. -/
theorem c_half_eq : c_half = ((1 / 2 : ℝ) : EReal) := by
  unfold c_half
  simp [Ideal.ofBits, Ideal.ieee, -EReal.coe_mul]; norm_num

/-- The word of two denotes the real `2`. -/
theorem c_two_eq : c_two = ((2 : ℝ) : EReal) := by
  unfold c_two
  simp [Ideal.ofBits, Ideal.ieee, -EReal.coe_mul]; norm_num

/-- The word of zero denotes `0`. -/
theorem c_zero_eq : c_zero = 0 := Ideal.ofBits_zero_f32

/-! ### The two squashings are one function -/

/-- On the reals: `1/2 + 1/2 * tanh (r/2) = 1 / (1 + exp (-r))`. With `u = exp (r/2)` the left side is
    `1/2 + 1/2 * (u - 1/u) / (u + 1/u) = u / (u + 1/u)` and the right side is `1 / (1 + 1/u^2)`. -/
theorem real_squash (r : ℝ) : 1 / 2 + 1 / 2 * Real.tanh (1 / 2 * r) = (1 + Real.exp (-r))⁻¹ := by
  have hu : 0 < Real.exp (1 / 2 * r) := Real.exp_pos _
  have e1 : Real.exp (-(1 / 2 * r)) = (Real.exp (1 / 2 * r))⁻¹ := Real.exp_neg _
  have e2 : Real.exp (-r) = (Real.exp (1 / 2 * r))⁻¹ * (Real.exp (1 / 2 * r))⁻¹ := by
    rw [← e1, ← Real.exp_add]; congr 1; ring
  rw [Real.tanh_eq_sinh_div_cosh, Real.sinh_eq, Real.cosh_eq, e1, e2]
  generalize Real.exp (1 / 2 * r) = u at hu
  field_simp
  ring

/-- The tanh squashing and the logistic squashing agree at every extended real: at a real by the identity above, at
    `⊤` both are `1`, at `⊥` both are `0`. -/
theorem actT_eq_actL (p : EReal) : actT p = actL p := by
  unfold actT actL
  rw [c_half_eq]
  induction p using EReal.rec with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | coe r =>
    rw [← EReal.coe_mul, Ideal.tanh_coe, ← EReal.coe_mul, ← EReal.coe_add, Ideal.logistic_coe, real_squash]
  | top =>
    rw [EReal.coe_mul_top_of_pos (by norm_num), Ideal.tanh_top, Ideal.logistic_top, mul_one, ← EReal.coe_add]
    norm_num

/-- The logistic squashing of any extended real is a real number. -/
theorem actL_real (p : EReal) : ∃ r : ℝ, actL p = (r : EReal) := by
  unfold actL
  induction p using EReal.rec with
  | bot => exact ⟨0, by rw [Ideal.logistic_bot, EReal.coe_zero]⟩
  | coe r => exact ⟨_, Ideal.logistic_coe r⟩
  | top => exact ⟨1, by rw [Ideal.logistic_top, EReal.coe_one]⟩

/-! ### The two distances agree on real vectors -/

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The Gram expansion of the squared distance, over the reals. -/
theorem real_gram (a b : Fin 128 → ℝ) :
    ((∑ k, a k * a k) + (∑ k, b k * b k)) - 2 * (∑ k, a k * b k) = ∑ k, (a k - b k) * (a k - b k) := by
  rw [Finset.mul_sum, ← Finset.sum_add_distrib, ← Finset.sum_sub_distrib]
  exact Finset.sum_congr rfl fun k _ => by ring

/-- For real vectors the Gram distance is the difference distance: the expansion is exact, and the clamp at zero is
    idle because a sum of squares is nonnegative. -/
theorem dist_real (a b : Fin 128 → ℝ) :
    distGram (fun k => (a k : EReal)) (fun k => (b k : EReal))
      = distDiff (fun k => (a k : EReal)) (fun k => (b k : EReal)) := by
  unfold distGram distDiff
  rw [c_two_eq, c_zero_eq]
  simp only [← EReal.coe_mul, ← EReal.coe_sub, ← coe_sum, ← EReal.coe_add]
  rw [real_gram, max_eq_left]
  exact EReal.coe_nonneg.mpr (Finset.sum_nonneg fun k _ => mul_self_nonneg _)

/-- The distance between two token rows is the same whether it is computed through the tanh squashing and the Gram
    product or through the logistic squashing and the squared differences. -/
theorem pair_eq (w : Fin 128 → Fin 128 → EReal) (ri rj : Fin 128 → EReal) : pairT w ri rj = pairL w ri rj := by
  unfold pairT pairL
  simp only [actT_eq_actL]
  obtain ⟨a, ha⟩ : ∃ a : Fin 128 → ℝ, (fun k => actL (proj w ri k)) = fun k => (a k : EReal) :=
    ⟨fun k => (actL_real (proj w ri k)).choose, funext fun k => (actL_real (proj w ri k)).choose_spec⟩
  obtain ⟨b, hb⟩ : ∃ b : Fin 128 → ℝ, (fun k => actL (proj w rj k)) = fun k => (b k : EReal) :=
    ⟨fun k => (actL_real (proj w rj k)).choose, funext fun k => (actL_real (proj w rj k)).choose_spec⟩
  rw [ha, hb]
  exact dist_real a b

end Cert.PairDist

end
-- ==== Proof.RefValue.lean ====
/-
  The second program's run, read: its result array holds, at (b, i, j), the distance between token rows i and j of
  sentence b of the argument.

  The program first pads the argument with two zero sentences, to 1026 = 342 * 3. The grid has 342 points; point t
  stages sentences 3 t, 3 t + 1, 3 t + 2 of the padded array and the whole weight matrix, and writes back row t of a
  [342, 1, 12288] array: the 3 * 64 * 64 distances of its three sentences, flat. After the launch the array is
  reshaped to [1026, 64, 64] and the two padded sentences are cut off again, so no entry of the result depends on
  the padding.
-/
import proofs.«118532_g2000303751998475_pallasbulk_1269_21_alg».proof.Proof.Gen.ReferenceIdeal.Frame
import proofs.«118532_g2000303751998475_pallasbulk_1269_21_alg».proof.Proof.RefBody
import proofs.«118532_g2000303751998475_pallasbulk_1269_21_alg».proof.Proof.PairLaw
import Idealize.ShloMosaic.Lib.Pipeline.Value
import Idealize.ShloMosaic.Lib.ValueIdx
import Idealize.ShloMosaic.Lib.KernelVsHost
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.ReferenceIdeal.RunValue

open Cert.ReferenceIdeal Cert.ReferenceIdeal.Gen Cert.PairDist Idealize.ShloMosaic.ValueIdx

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The two argument arrays as launched, as functions of their indices. -/
abbrev xarr (c : Dev nD) : S1024x64x128.Idx → EReal := m ((c : Thread nD τ).loc main_arg0)
abbrev warr (c : Dev nD) : S128x128.Idx → EReal := m ((c : Thread nD τ).loc main_arg1)

/-- The padded array of 1026 sentences the launch stages. -/
abbrev xpad (c : Dev nD) : S1026x64x128.Idx → EReal := V m c main_v0

/-- On the first 1024 sentences the padded array is the argument. -/
theorem xpad_apply (c : Dev nD) (b : Fin 1026) (hb : b.val < 1024) (s : Fin 64) (l : Fin 128) :
    xpad m c (ix3 b s l) = xarr m c (ix3 ⟨b.val, hb⟩ s l) := by
  show (V m c main_v0 : S1026x64x128.Idx → EReal) (ix3 b s l) = _
  dsimp only [Gen.V, Gen.V0]
  simp only [hostOps0, hostOps0_1, List.flatten_cons, List.flatten_nil, List.append_nil, List.cons_append, List.nil_append]
  after_results
  exact pad_apply_of_inside ![0, 0, 0] ![2, 0, 0] ![0, 0, 0] (xarr m c) _ pads_S1024x64x128_S1026x64x128_020_000_000 h_S_
    (ix3 b s l) (ix3 ⟨b.val, hb⟩ s l) (fun a => by
      match a with
      | ⟨0, _⟩ => show b.val = 0 + b.val * (0 + 1); omega
      | ⟨1, _⟩ => show s.val = 0 + s.val * (0 + 1); omega
      | ⟨2, _⟩ => show l.val = 0 + l.val * (0 + 1); omega)

/-- Which sentence of the padded array, and which two token rows, an entry of the launch's flat output array is
    about: row t holds sentences 3 t .. 3 t + 2, each as 64 * 64 consecutive entries, row-major in the two tokens. -/
def sent (i : S342x1x12288.Idx) : Fin 1026 :=
  ⟨(i 0).val * 3 + (i 2).val / 4096, by
    have h0 : (i 0).val < 342 := (i 0).isLt
    have h2 : (i 2).val < 12288 := (i 2).isLt
    omega⟩
def tokI (i : S342x1x12288.Idx) : Fin 64 := ⟨(i 2).val / 64 % 64, Nat.mod_lt _ (by norm_num)⟩
def tokJ (i : S342x1x12288.Idx) : Fin 64 := ⟨(i 2).val % 64, Nat.mod_lt _ (by norm_num)⟩

/-- The flat array the launch fills. -/
def mid (c : Dev nD) : S342x1x12288.Idx → EReal :=
  fun i => pairL (wmat (warr m c)) (row (xpad m c) (sent i) (tokI i)) (row (xpad m c) (sent i) (tokJ i))

/-- The printed index maps over the 342 points: the input window stages block t of the padded array, the output
    window writes row t, every other block coordinate is 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The input window's block at point t is sentences 3 t .. 3 t + 2 of the padded array. -/
theorem iblk0_apply (c : Dev nD) (t : Fin cfg0.N) (y : S3x64x128.Idx) (k : S1026x64x128.Idx)
    (h0 : (k 0).val = t.val * 3 + (y 0).val) (h1 : (k 1).val = (y 1).val) (h2 : (k 2).val = (y 2).val) :
    (iblk m c 0 t : Vec Ideal S3x64x128 .f32) y = xpad m c k := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 3 + 1 * (y 0).val = (k 0).val; rw [e0, h0]; omega
  | ⟨1, _⟩ => show win0_0.index t 1 * 64 + 1 * (y 1).val = (k 1).val; rw [e1, h1]; omega
  | ⟨2, _⟩ => show win0_0.index t 2 * 128 + 1 * (y 2).val = (k 2).val; rw [e2, h2]; omega

/-- The weight window's block is the whole weight matrix at every point. -/
theorem iblk1_apply (c : Dev nD) (t : Fin cfg0.N) (y : S128x128.Idx) :
    (iblk m c 1 t : Vec Ideal S128x128 .f32) y = warr m c y := by
  obtain ⟨-, -, -, e3, e4, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 128 + 1 * (y 0).val = (y 0).val; rw [e3]; omega
  | ⟨1, _⟩ => show win0_1.index t 1 * 128 + 1 * (y 1).val = (y 1).val; rw [e4]; omega

/-- WHAT POINT t WRITES BACK is its row of `mid`. -/
theorem flushed_eq (c : Dev nD) (t : Fin cfg0.N) :
    (dats m 0 c).flushed 2 t = ((cfg0.win 2).blk t).view.read (Elt Ideal) (mid m c) := by
  show (cfg0.win 2).cut (grid0.coords t) ((dats m 0 c).after 2 t) = _
  rw [after0_2]
  unfold out0_2
  rw [View.canon_unit_zero hz3]
  simp only [View.ld_unit_zero (S := S3x64x128) hz3, View.ld_unit_zero (S := S128x128) hz2]
  obtain ⟨-, -, -, -, -, e5, e6, e7⟩ := idx_facts t
  refine funext fun (y : S1x1x12288.Idx) => ?_
  obtain ⟨z0, z1, f, rfl⟩ : ∃ (z0 z1 : Fin 1) (f : Fin 12288), y = ix3 z0 z1 f := ⟨y 0, y 1, y 2, eq_ix3 y⟩
  obtain rfl : z0 = 0 := Subsingleton.elim _ _
  obtain rfl : z1 = 0 := Subsingleton.elim _ _
  have hf : f.val < 12288 := f.isLt
  refine (Body.pay_apply _ _ ⟨f.val / 4096, by omega⟩ ⟨f.val / 64 % 64, Nat.mod_lt _ (by norm_num)⟩
    ⟨f.val % 64, Nat.mod_lt _ (by norm_num)⟩ f (by show f.val = f.val / 4096 * 4096 + f.val / 64 % 64 * 64 + f.val % 64; omega)).trans ?_
  show pairL _ _ _ = mid m c (((cfg0.win 2).blk t).view.emb (ix3 0 0 f))
  unfold mid
  have k0 : ((((cfg0.win 2).blk t).view.emb (ix3 (0 : Fin 1) (0 : Fin 1) f)) 0).val = t.val := by
    show win0_2.index t 0 * 1 + 1 * 0 = t.val; rw [e5]; omega
  have k2 : ((((cfg0.win 2).blk t).view.emb (ix3 (0 : Fin 1) (0 : Fin 1) f)) 2).val = f.val := by
    show win0_2.index t 2 * 12288 + 1 * f.val = f.val; rw [e7]; omega
  have s0 : (sent (((cfg0.win 2).blk t).view.emb (ix3 (0 : Fin 1) (0 : Fin 1) f))).val = t.val * 3 + f.val / 4096 := by
    show ((((cfg0.win 2).blk t).view.emb (ix3 (0 : Fin 1) (0 : Fin 1) f)) 0).val * 3
      + ((((cfg0.win 2).blk t).view.emb (ix3 (0 : Fin 1) (0 : Fin 1) f)) 2).val / 4096 = _
    rw [k0, k2]
  have s1 : (tokI (((cfg0.win 2).blk t).view.emb (ix3 (0 : Fin 1) (0 : Fin 1) f))).val = f.val / 64 % 64 := by
    show ((((cfg0.win 2).blk t).view.emb (ix3 (0 : Fin 1) (0 : Fin 1) f)) 2).val / 64 % 64 = _
    rw [k2]
  have s2 : (tokJ (((cfg0.win 2).blk t).view.emb (ix3 (0 : Fin 1) (0 : Fin 1) f))).val = f.val % 64 := by
    show ((((cfg0.win 2).blk t).view.emb (ix3 (0 : Fin 1) (0 : Fin 1) f)) 2).val % 64 = _
    rw [k2]
  have hw : (fun l r => (iblk m c 1 t : Vec Ideal S128x128 .f32) (ix2 l r)) = wmat (warr m c) :=
    funext fun l => funext fun r => iblk1_apply m c t (ix2 l r)
  have hi : (fun l => (iblk m c 0 t : Vec Ideal S3x64x128 .f32) (ix3 ⟨f.val / 4096, by omega⟩ ⟨f.val / 64 % 64, Nat.mod_lt _ (by norm_num)⟩ l))
      = row (xpad m c) (sent (((cfg0.win 2).blk t).view.emb (ix3 (0 : Fin 1) (0 : Fin 1) f))) (tokI (((cfg0.win 2).blk t).view.emb (ix3 (0 : Fin 1) (0 : Fin 1) f))) :=
    funext fun l => iblk0_apply m c t (ix3 _ _ l) (ix3 _ _ l) s0 s1 rfl
  have hj : (fun l => (iblk m c 0 t : Vec Ideal S3x64x128 .f32) (ix3 ⟨f.val / 4096, by omega⟩ ⟨f.val % 64, Nat.mod_lt _ (by norm_num)⟩ l))
      = row (xpad m c) (sent (((cfg0.win 2).blk t).view.emb (ix3 (0 : Fin 1) (0 : Fin 1) f))) (tokJ (((cfg0.win 2).blk t).view.emb (ix3 (0 : Fin 1) (0 : Fin 1) f))) :=
    funext fun l => iblk0_apply m c t (ix3 _ _ l) (ix3 _ _ l) s0 s2 rfl
  exact congr (congr (congrArg pairL hw) hi) hj

/-- An index of the flat array is in point t's row iff each coordinate is in the row's range. -/
theorem mem_blk (t : Fin cfg0.N) (i : S342x1x12288.Idx) :
    i ∈ ((cfg0.win 2).blk t).view.set ↔ ∀ a : Fin 3, win0_2.index t a * S1x1x12288.size a ≤ (i a).val ∧ (i a).val < win0_2.index t a * S1x1x12288.size a + S1x1x12288.size a := by
  show i ∈ ((View.whole main_v1).slice (win0_2.rect t)).set ↔ _
  rw [View.set_slice_whole, Rect.mem_set_unit]
  exact Iff.rfl

/-- Every entry of the flat array is in the row of the point with its first coordinate. -/
theorem cover (i : S342x1x12288.Idx) : ∃ t : Fin cfg0.N, (cfg0.win 2).flush t = true ∧ i ∈ ((cfg0.win 2).blk t).view.set := by
  have hN : cfg0.N = 342 := N_0
  have hi0 : (i 0).val < 342 := (i 0).isLt
  have hi1 : (i 1).val < 1 := (i 1).isLt
  have hi2 : (i 2).val < 12288 := (i 2).isLt
  obtain ⟨t, ht⟩ : ∃ t : Fin cfg0.N, t.val = (i 0).val := ⟨⟨(i 0).val, by omega⟩, rfl⟩
  obtain ⟨-, -, -, -, -, e5, e6, e7⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 12288 ≤ (i 2).val ∧ (i 2).val < win0_2.index t (2 : Fin 3) * 12288 + 12288; omega

/-- THE ARRAY THE LAUNCH LEAVES is `mid`. -/
theorem final (c : Dev nD) : (dats m 0 c).arrAt 2 cfg0.N = mid m c :=
  (dats m 0 c).arrAt_eq_of_cover 2 (mid m c) (fun t _ => flushed_eq m c t) cover

/-- The two operations after the launch regroup the flat rows by sentence and cut the two padded sentences off. -/
theorem tail_eq (c : Dev nD) :
    Pipeline.afterTail₀ cfgs (dats m) 0 (V0 m) [hostOps1] c main_v3 = G (xarr m c) (warr m c) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.tc.devRef main_v1) = mid m c :=
    (Pipeline.withArrays_arr spec0 launch0.win.arr_inj c _ _ 2).trans (final m c)
  rw [hA]
  funext idx
  obtain ⟨b, i, j, rfl⟩ : ∃ (b : Fin 1024) (i j : Fin 64), idx = ix3 b i j := ⟨idx 0, idx 1, idx 2, eq_ix3 idx⟩
  have hb : b.val < 1024 := b.isLt
  have hi : i.val < 64 := i.isLt
  have hj : j.val < 64 := j.isLt
  -- the cut keeps the first 1024 sentences where they are
  refine (extractStridedSlice_apply ![0, 0, 0] _ slices_S1026x64x64_S1024x64x64_0_0_0 (ix3 b i j)
    (ix3 (⟨b.val, by omega⟩ : Fin 1026) i j) (fun a => ?_)).trans ?_
  · match a with
    | ⟨0, _⟩ => show b.val = 0 + b.val; omega
    | ⟨1, _⟩ => show i.val = 0 + i.val; omega
    | ⟨2, _⟩ => show j.val = 0 + j.val; omega
  -- the regrouping keeps the row-major position: sentence b is entry b % 3 of flat row b / 3
  show shapeCast S1026x64x64 (mid m c) shapeCasts_S342x1x12288_S1026x64x64 (ix3 (⟨b.val, by omega⟩ : Fin 1026) i j) = _
  refine (shapeCast_apply (mid m c) shapeCasts_S342x1x12288_S1026x64x64 (ix3 (⟨b.val, by omega⟩ : Fin 1026) i j)
    (ix3 (⟨b.val / 3, by omega⟩ : Fin 342) (0 : Fin 1) (⟨b.val % 3 * 4096 + i.val * 64 + j.val, by omega⟩ : Fin 12288)) ?_).trans ?_
  · rw [Shape.rowMajor_val_three, Shape.rowMajor_val_three]
    show (b.val / 3 * 1 + 0) * 12288 + (b.val % 3 * 4096 + i.val * 64 + j.val) = (b.val * 64 + i.val) * 64 + j.val
    omega
  · show pairL (wmat (warr m c)) (row (xpad m c) (sent _) (tokI _)) (row (xpad m c) (sent _) (tokJ _))
      = pairT (wmat (warr m c)) (row (xarr m c) b i) (row (xarr m c) b j)
    rw [pair_eq]
    have hs : sent (ix3 (⟨b.val / 3, by omega⟩ : Fin 342) (0 : Fin 1) (⟨b.val % 3 * 4096 + i.val * 64 + j.val, by omega⟩ : Fin 12288))
        = (⟨b.val, by omega⟩ : Fin 1026) :=
      Fin.ext (by show b.val / 3 * 3 + (b.val % 3 * 4096 + i.val * 64 + j.val) / 4096 = b.val; omega)
    have hI : tokI (ix3 (⟨b.val / 3, by omega⟩ : Fin 342) (0 : Fin 1) (⟨b.val % 3 * 4096 + i.val * 64 + j.val, by omega⟩ : Fin 12288)) = i :=
      Fin.ext (by show (b.val % 3 * 4096 + i.val * 64 + j.val) / 64 % 64 = i.val; omega)
    have hJ : tokJ (ix3 (⟨b.val / 3, by omega⟩ : Fin 342) (0 : Fin 1) (⟨b.val % 3 * 4096 + i.val * 64 + j.val, by omega⟩ : Fin 12288)) = j :=
      Fin.ext (by show (b.val % 3 * 4096 + i.val * 64 + j.val) % 64 = j.val; omega)
    rw [hs, hI, hJ]
    have ri : row (xpad m c) (⟨b.val, by omega⟩ : Fin 1026) i = row (xarr m c) b i := funext fun l => xpad_apply m c _ hb i l
    have rj : row (xpad m c) (⟨b.val, by omega⟩ : Fin 1026) j = row (xarr m c) b j := funext fun l => xpad_apply m c _ hb j l
    rw [ri, rj]

/-- THE RUN, READ: every weakly fair execution ends with the result array at `G` of the two arguments and the
    arguments unchanged. -/
theorem run : θ_run defs (onTc (τ := τ) (main (F := Ideal))) ⟨m, fun _ => 0, ρ⟩ fun r => ∀ c : Dev nD,
      r.2.mem ((c : Thread nD τ).loc main_v3) = G (xarr m c) (warr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.ReferenceIdeal.RunValue

end
-- ==== Proof.lean ====
/-
  The certificate's claim: two programs that compute, for every sentence of a batch, the matrix of Euclidean
  distances between its tokens' squashed projections, agree over the extended reals.

  Both normalise every entry of a token row as log (|x| + 1) and project the row with the same weight matrix. They
  then differ in how they squash a projected entry p to (0, 1) — 1/2 + 1/2 * tanh (p / 2) against the logistic
  function 1 / (1 + exp (-p)) — and in how they take the distance between two squashed rows a and b — through the
  Gram product, sqrt (max (|a|^2 + |b|^2 - 2 <a, b>) 0), against the squared differences, sqrt (sum (a k - b k)^2).
  They also tile the batch differently (128 sentences a step, written sentence-last and transposed afterwards,
  against 3 sentences a step after padding the batch to a multiple of 3, written flat, regrouped and cut back).

  The two squashings are one function on the whole extended line, and its values are real numbers in [0, 1]; for
  real vectors the Gram expansion IS the sum of squared differences, which is nonnegative, so the clamp is idle.
  Hence both programs end at one function of the arguments (`Cert.PairDist.G`), on every input: the finiteness
  precondition is never used. Each program's run is read off its frame: what a grid point writes back is a block of
  one whole-array function, the blocks cover the array, and the operations after the launch only move entries.
  The three frames are the generated ones, and the idealised program is the printed text read at the ideal values
  (no rewrite was applied), so that conjunct is `True`.
-/
import proofs.«118532_g2000303751998475_pallasbulk_1269_21_alg».proof.Defs
import proofs.«118532_g2000303751998475_pallasbulk_1269_21_alg».proof.Proof.Gen.Kernel
import proofs.«118532_g2000303751998475_pallasbulk_1269_21_alg».proof.Proof.Gen.Kernel.Skeleton
import proofs.«118532_g2000303751998475_pallasbulk_1269_21_alg».proof.Proof.Gen.Kernel.Launch
import proofs.«118532_g2000303751998475_pallasbulk_1269_21_alg».proof.Proof.Gen.Kernel.Points
import proofs.«118532_g2000303751998475_pallasbulk_1269_21_alg».proof.Proof.Gen.Kernel.Frame
import proofs.«118532_g2000303751998475_pallasbulk_1269_21_alg».proof.Proof.Gen.KernelIdeal
import proofs.«118532_g2000303751998475_pallasbulk_1269_21_alg».proof.Proof.Gen.KernelIdeal.Skeleton
import proofs.«118532_g2000303751998475_pallasbulk_1269_21_alg».proof.Proof.Gen.KernelIdeal.Launch
import proofs.«118532_g2000303751998475_pallasbulk_1269_21_alg».proof.Proof.Gen.KernelIdeal.Points
import proofs.«118532_g2000303751998475_pallasbulk_1269_21_alg».proof.Proof.Gen.KernelIdeal.Frame
import proofs.«118532_g2000303751998475_pallasbulk_1269_21_alg».proof.Proof.Gen.ReferenceIdeal
import proofs.«118532_g2000303751998475_pallasbulk_1269_21_alg».proof.Proof.Gen.ReferenceIdeal.Skeleton
import proofs.«118532_g2000303751998475_pallasbulk_1269_21_alg».proof.Proof.Gen.ReferenceIdeal.Launch
import proofs.«118532_g2000303751998475_pallasbulk_1269_21_alg».proof.Proof.Gen.ReferenceIdeal.Points
import proofs.«118532_g2000303751998475_pallasbulk_1269_21_alg».proof.Proof.Gen.ReferenceIdeal.Frame
import proofs.«118532_g2000303751998475_pallasbulk_1269_21_alg».proof.Proof.Gen.Pre_finite_inputs
import proofs.«118532_g2000303751998475_pallasbulk_1269_21_alg».proof.Proof.KernelValue
import proofs.«118532_g2000303751998475_pallasbulk_1269_21_alg».proof.Proof.RefValue
import Idealize.ShloMosaic.Adequacy
import Idealize.ShloMosaic.Init

noncomputable section

namespace Cert.Proof

open Idealize.ShloMosaic Idealize.ShloMosaic.TcCoe Idealize.SL.Sem

/-- Run from memories that agree on the two arguments, both programs end with the result array at the same function
    `G` of those arguments, and leave the arguments as they were. -/
theorem algebraic : Cert.algebraic_KernelIdeal_ReferenceIdeal := by
  intro m ρ m' ρ' _ hagree
  refine ⟨fun c => Cert.PairDist.G (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨(h c).1.trans ?_, (h c).2⟩)
    (Cert.ReferenceIdeal.RunValue.run m' ρ')
  show Cert.PairDist.G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
    = Cert.PairDist.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
  rw [(hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
